-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10240 : Shape := ⟨2, ![1, 10240]⟩
abbrev S10240x4 : Shape := ⟨2, ![10240, 4]⟩
abbrev S1x10240x4 : Shape := ⟨3, ![1, 10240, 4]⟩
abbrev S_ : Shape := ⟨0, ![]⟩

class Facts : Prop where
  bitsLt_bf16_f32 : FTy.bits .bf16 < FTy.bits .f32
  bcast_S_S1x10240 : S_.BroadcastsInDim S1x10240 (![] : Fin 0 → Fin S1x10240.rank)
  reducesTo_S1x10240_S_d0_1 : S1x10240.ReducesTo [0, 1] S_
  h_S_ : 0 < S_.numel
  bcast_S_S10240x4 : S_.BroadcastsInDim S10240x4 (![] : Fin 0 → Fin S10240x4.rank)
  reducesTo_S10240x4_S_d0_1 : S10240x4.ReducesTo [0, 1] S_
  bcast_S_S1x10240x4 : S_.BroadcastsInDim S1x10240x4 (![] : Fin 0 → Fin S1x10240x4.rank)
  reducesTo_S1x10240x4_S_d0_1_2 : S1x10240x4.ReducesTo [0, 1, 2] S_

variable [Facts]

def fn {F : FTy → Type} [FloatOps F] (main_arg0 : FVec F S1x10240 .bf16) (main_arg1 : FVec F S10240x4 .bf16) (main_arg2 : FVec F S1x10240x4 .bf16) : IVec S_ 1 :=
  let main_v0 : FVec F S1x10240 .f32 := (extf .f32 · bitsLt_bf16_f32) main_arg0
  let main_v1 : FVec F S1x10240 .f32 := Host.absf main_v0
  let main_cst : FVec F S_ .f32 := constant S_ .f32 0x7F800000#32
  let main_v2 : FVec F S1x10240 .f32 := broadcastInDim S1x10240 ![] bcast_S_S1x10240 main_cst
  let main_v3 : IVec S1x10240 1 := cmpf .olt main_v1 main_v2
  let main_c : IVec S_ 1 := constantI S_ 1 1#1
  let main_v4 : IVec S_ 1 := (fun x v => Host.reduce IntOp.andi x v reducesTo_S1x10240_S_d0_1 h_S_) main_v3 main_c
  let main_v5 : FVec F S10240x4 .f32 := (extf .f32 · bitsLt_bf16_f32) main_arg1
  let main_v6 : FVec F S10240x4 .f32 := Host.absf main_v5
  let main_cst_0 : FVec F S_ .f32 := constant S_ .f32 0x7F800000#32
  let main_v7 : FVec F S10240x4 .f32 := broadcastInDim S10240x4 ![] bcast_S_S10240x4 main_cst_0
  let main_v8 : IVec S10240x4 1 := cmpf .olt main_v6 main_v7
  let main_c_1 : IVec S_ 1 := constantI S_ 1 1#1
  let main_v9 : IVec S_ 1 := (fun x v => Host.reduce IntOp.andi x v reducesTo_S10240x4_S_d0_1 h_S_) main_v8 main_c_1
  let main_v10 : IVec S_ 1 := andi main_v4 main_v9
  let main_v11 : FVec F S1x10240x4 .f32 := (extf .f32 · bitsLt_bf16_f32) main_arg2
  let main_v12 : FVec F S1x10240x4 .f32 := Host.absf main_v11
  let main_cst_2 : FVec F S_ .f32 := constant S_ .f32 0x7F800000#32
  let main_v13 : FVec F S1x10240x4 .f32 := broadcastInDim S1x10240x4 ![] bcast_S_S1x10240x4 main_cst_2
  let main_v14 : IVec S1x10240x4 1 := cmpf .olt main_v12 main_v13
  let main_c_3 : IVec S_ 1 := constantI S_ 1 1#1
  let main_v15 : IVec S_ 1 := (fun x v => Host.reduce IntOp.andi x v reducesTo_S1x10240x4_S_d0_1_2 h_S_) main_v14 main_c_3
  let main_v16 : IVec S_ 1 := andi main_v10 main_v15
  main_v16
-- ==== Kernel.lean ====
abbrev S1x10240 : Shape := ⟨2, ![1, 10240]⟩
abbrev S10240x4 : Shape := ⟨2, ![10240, 4]⟩
abbrev S1x10240x4 : Shape := ⟨3, ![1, 10240, 4]⟩
abbrev S1x1280 : Shape := ⟨2, ![1, 1280]⟩
abbrev S1280x4 : Shape := ⟨2, ![1280, 4]⟩
abbrev S1x1280x4 : Shape := ⟨3, ![1, 1280, 4]⟩
abbrev S1280x1 : Shape := ⟨2, ![1280, 1]⟩
abbrev S1280 : Shape := ⟨1, ![1280]⟩
abbrev S1x1280x1 : Shape := ⟨3, ![1, 1280, 1]⟩

abbrev nBuf : Space → Nat
  | .hbm => 4
  | .vmem => 8
  | .smem => 0
  | _ => 0

abbrev bufTy : (tb : Table) → Fin (tcTables nBuf tb) → BufTy
  | .hbm, ⟨0, _⟩ => ⟨S1x10240, .bf16⟩
  | .hbm, ⟨1, _⟩ => ⟨S10240x4, .bf16⟩
  | .hbm, ⟨2, _⟩ => ⟨S1x10240x4, .bf16⟩
  | .hbm, ⟨3, _⟩ => ⟨S1x10240, .bf16⟩
  | .local _ .vmem, ⟨0, _⟩ => ⟨S1x1280, .bf16⟩
  | .local _ .vmem, ⟨1, _⟩ => ⟨S1x1280, .bf16⟩
  | .local _ .vmem, ⟨2, _⟩ => ⟨S1280x4, .bf16⟩
  | .local _ .vmem, ⟨3, _⟩ => ⟨S1280x4, .bf16⟩
  | .local _ .vmem, ⟨4, _⟩ => ⟨S1x1280x4, .bf16⟩
  | .local _ .vmem, ⟨5, _⟩ => ⟨S1x1280x4, .bf16⟩
  | .local _ .vmem, ⟨6, _⟩ => ⟨S1x1280, .bf16⟩
  | .local _ .vmem, ⟨7, _⟩ => ⟨S1x1280, .bf16⟩
  | _, _ => ⟨S1x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x4 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1280x4 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x1280_S1x1280_0_0 : ∀ a, (![0, 0] : Fin 2 → Nat) a + S1x1280.size a ≤ S1x1280.size a
  h_S1x1280 : 0 < S1x1280.numel
  bitsLt_bf16_f32 : FTy.bits .bf16 < FTy.bits .f32
  inb_S1280x4_S1280x4_0_0 : ∀ a, (![0, 0] : Fin 2 → Nat) a + S1280x4.size a ≤ S1280x4.size a
  h_S1280x4 : 0 < S1280x4.numel
  inb_S1x1280x4_S1x1280x4_0_0_0 : ∀ a, (![0, 0, 0] : Fin 3 → Nat) a + S1x1280x4.size a ≤ S1x1280x4.size a
  h_S1x1280x4 : 0 < S1x1280x4.numel
  slices_S1280x4_o0_0_S1280x1 : S1280x4.Slices ![0, 0] S1280x1
  shapeCasts_S1280x1_S1280 : S1280x1.ShapeCasts S1280
  shapeCasts_S1280_S1x1280 : S1280.ShapeCasts S1x1280
  slices_S1280x4_o0_1_S1280x1 : S1280x4.Slices ![0, 1] S1280x1
  slices_S1280x4_o0_2_S1280x1 : S1280x4.Slices ![0, 2] S1280x1
  slices_S1280x4_o0_3_S1280x1 : S1280x4.Slices ![0, 3] S1280x1
  slices_S1x1280x4_o0_0_1_S1x1280x1 : S1x1280x4.Slices ![0, 0, 1] S1x1280x1
  shapeCasts_S1x1280x1_S1x1280 : S1x1280x1.ShapeCasts S1x1280
  slices_S1x1280x4_o0_0_2_S1x1280x1 : S1x1280x4.Slices ![0, 0, 2] S1x1280x1
  slices_S1x1280x4_o0_0_3_S1x1280x1 : S1x1280x4.Slices ![0, 0, 3] S1x1280x1
  packedbf16_S1x1280_S1x1280_0_0 : (Rect.unit (s := S1x1280) ![0, 0] S1x1280.size inb_S1x1280_S1x1280_0_0).PackedRows (EltTy.packing .bf16)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1280.size a ≤ S1x10240.size a
  hwx0_0 : ∀ i : grid0.Coords, EltTy.bits .bf16 = 32 ∨ (Rect.block (s := S1x10240) S1x1280.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x4.size a ≤ S10240x4.size a
  hwx0_1 : ∀ i : grid0.Coords, EltTy.bits .bf16 = 32 ∨ (Rect.block (s := S10240x4) S1280x4.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1280x4.size a ≤ S1x10240x4.size a
  hwx0_2 : ∀ i : grid0.Coords, EltTy.bits .bf16 = 32 ∨ (Rect.block (s := S1x10240x4) S1x1280x4.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1280.size a ≤ S1x10240.size a
  hwx0_3 : ∀ i : grid0.Coords, EltTy.bits .bf16 = 32 ∨ (Rect.block (s := S1x10240) S1x1280.size (cc0_transform_3 i) (hinb0_3 i)).WholeWords (EltTy.packing .bf16)

variable [Facts₀]

abbrev win0_0 : Pipeline.Window sig grid0 :=
  Pipeline.Window.ofSpec (Memref.whole main_arg0) S1x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1280x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1280x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1280.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x10240 : Shape := ⟨2, ![1, 10240]⟩
abbrev S10240x4 : Shape := ⟨2, ![10240, 4]⟩
abbrev S1x10240x4 : Shape := ⟨3, ![1, 10240, 4]⟩
abbrev S1x10240x3 : Shape := ⟨3, ![1, 10240, 3]⟩
abbrev S1x10240x1 : Shape := ⟨3, ![1, 10240, 1]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S1x10240, .bf16⟩
  | .hbm, ⟨1, _⟩ => ⟨S10240x4, .bf16⟩
  | .hbm, ⟨2, _⟩ => ⟨S1x10240x4, .bf16⟩
  | .hbm, ⟨3, _⟩ => ⟨S1x10240x3, .bf16⟩
  | .hbm, ⟨4, _⟩ => ⟨S1x10240x1, .bf16⟩
  | .hbm, ⟨5, _⟩ => ⟨S1x10240x4, .bf16⟩
  | .hbm, ⟨6, _⟩ => ⟨S1x10240x4, .f32⟩
  | .hbm, ⟨7, _⟩ => ⟨S10240x4, .f32⟩
  | .hbm, ⟨8, _⟩ => ⟨S1x10240x4, .f32⟩
  | .hbm, ⟨9, _⟩ => ⟨S1x10240x4, .f32⟩
  | .hbm, ⟨10, _⟩ => ⟨S_, .f32⟩
  | .hbm, ⟨11, _⟩ => ⟨S1x10240, .f32⟩
  | .hbm, ⟨12, _⟩ => ⟨S1x10240, .f32⟩
  | .hbm, ⟨13, _⟩ => ⟨S1x10240, .f32⟩
  | .hbm, ⟨14, _⟩ => ⟨S_, .f32⟩
  | .hbm, ⟨15, _⟩ => ⟨S1x10240, .f32⟩
  | .hbm, ⟨16, _⟩ => ⟨S1x10240, .f32⟩
  | .hbm, ⟨17, _⟩ => ⟨S_, .f32⟩
  | .hbm, ⟨18, _⟩ => ⟨S1x10240, .f32⟩
  | .hbm, ⟨19, _⟩ => ⟨S1x10240, .f32⟩
  | .hbm, ⟨20, _⟩ => ⟨S1x10240, .f32⟩
  | .hbm, ⟨21, _⟩ => ⟨S1x10240, .bf16⟩
  | _, _ => ⟨S1x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  slices_S1x10240x4_S1x10240x3_0_0_1 : S1x10240x4.Slices ![0, 0, 1] S1x10240x3
  bcast_S1x10240_S1x10240x1_0_1 : S1x10240.BroadcastsInDim S1x10240x1 (![0, 1] : Fin 2 → Fin S1x10240x1.rank)
  concatenates_S1x10240x3_S1x10240x1_S1x10240x4_d2 : Shape.Concatenates [S1x10240x3, S1x10240x1] S1x10240x4 2
  bitsLt_bf16_f32 : FTy.bits .bf16 < FTy.bits .f32
  bcast_S10240x4_S1x10240x4_1_2 : S10240x4.BroadcastsInDim S1x10240x4 (![1, 2] : Fin 2 → Fin S1x10240x4.rank)
  reducesTo_S1x10240x4_S1x10240_d2 : S1x10240x4.ReducesTo [2] S1x10240
  h_S_ : 0 < S_.numel
  bcast_S_S1x10240 : S_.BroadcastsInDim S1x10240 (![] : Fin 0 → Fin S1x10240.rank)

variable [Facts₀]

class Facts : Prop extends Facts₀ where

variable [Facts]
-- ==== Proof.GatedTaps.lean ====
/-
  The function both programs compute, stated once over the three argument arrays.

  One decode step of a causal depthwise convolution with four taps over 10240 channels, followed by the gate
  `y ↦ y · σ(y)`. The state array `cs` holds, per channel `d`, the last four tokens; the step drops the oldest
  (tap position 0), keeps positions 1, 2, 3, and appends the new token `x d`. Channel `d`'s pre-activation is

      y d = cs d 1 · w d 0 + cs d 2 · w d 1 + cs d 3 · w d 2 + x d · w d 3,

  and the result is `y d · σ(y d)` with `σ y = 1 / (1 + e^(-y))` on the extended reals (`σ ⊥ = 0`, `σ ⊤ = 1`).

  Nothing here needs the entries to be finite: the only law used to identify the two programs' sums is that
  addition on the extended reals is associative with unit `0`.
-/
import Idealize.ShloMosaic.PureOps.Ideal
import Idealize.ShloMosaic.Lib.ValueIdx

noncomputable section

open scoped BigOperators
open Idealize.ShloMosaic Idealize.ShloMosaic.ValueIdx

namespace Cert.ConvStep

/-- The gate `y · σ(y)` on the extended reals. -/
def silu (y : EReal) : EReal := y * Ideal.logistic y

/-- Channel `d`'s four products, by tap position `k`: the three kept state entries against the first three
    weights, the new token against the last. -/
def term (x : (⟨2, ![1, 10240]⟩ : Shape).Idx → EReal) (w : (⟨2, ![10240, 4]⟩ : Shape).Idx → EReal)
    (cs : (⟨3, ![1, 10240, 4]⟩ : Shape).Idx → EReal) (b : Fin 1) (d : Fin 10240) : Fin 4 → EReal
  | ⟨0, _⟩ => cs (ix3 b d (1 : Fin 4)) * w (ix2 d (0 : Fin 4))
  | ⟨1, _⟩ => cs (ix3 b d (2 : Fin 4)) * w (ix2 d (1 : Fin 4))
  | ⟨2, _⟩ => cs (ix3 b d (3 : Fin 4)) * w (ix2 d (2 : Fin 4))
  | ⟨_ + 3, _⟩ => x (ix2 b d) * w (ix2 d (3 : Fin 4))

/-- Channel `d`'s pre-activation, the four products summed left to right. -/
def taps (x : (⟨2, ![1, 10240]⟩ : Shape).Idx → EReal) (w : (⟨2, ![10240, 4]⟩ : Shape).Idx → EReal)
    (cs : (⟨3, ![1, 10240, 4]⟩ : Shape).Idx → EReal) (b : Fin 1) (d : Fin 10240) : EReal :=
  term x w cs b d 0 + term x w cs b d 1 + term x w cs b d 2 + term x w cs b d 3

/-- The step's result array, index by index. -/
def G (x : (⟨2, ![1, 10240]⟩ : Shape).Idx → EReal) (w : (⟨2, ![10240, 4]⟩ : Shape).Idx → EReal)
    (cs : (⟨3, ![1, 10240, 4]⟩ : Shape).Idx → EReal) : (⟨2, ![1, 10240]⟩ : Shape).Idx → EReal :=
  fun i => silu (taps x w cs (i 0) (i 1))

/-- A sum over the four tap positions started from `0` is the four products summed left to right. -/
theorem zero_add_sum_four (f : Fin 4 → EReal) : 0 + ∑ k : Fin 4, f k = f 0 + f 1 + f 2 + f 3 := by
  rw [zero_add, Fin.sum_univ_four]

end Cert.ConvStep

end
-- ==== Proof.KernelValue.lean ====
/-
  What the kernel leaves in its result array, on the extended reals: the step's function `G` of the three argument arrays.

  The 10240 channels are cut into 8 blocks of 1280. At block `t` the body holds the token block `x[0, 1280 t + q]`, the
  weight block `w[1280 t + q, k]` and the state block `cs[0, 1280 t + q, k]` (`q < 1280`, `k < 4`); it takes the state's
  tap positions 1, 2, 3 and the weights' columns 0, 1, 2, 3 as rows of 1280 lanes, forms

      y q = cs q 1 · w q 0 + cs q 2 · w q 1 + cs q 3 · w q 2 + x q · w q 3

  lane by lane, and stores `y q · σ(y q)`. Lane `q` of block `t` is channel `1280 t + q` in all four arrays, so what block
  `t` writes back is block `t` of `G`; the 8 blocks tile the result array, so the array ends at `G`.
-/
import proofs.«178893_j2078764171677_1_alg».proof.Proof.Gen.KernelIdeal.Value
import proofs.«178893_j2078764171677_1_alg».proof.Proof.GatedTaps

noncomputable section

open Idealize.ShloMosaic Idealize.ShloMosaic.TcCoe Idealize.SL.Sem Idealize.ShloMosaic.ValueIdx
open Idealize.ShloMosaic.Pipeline (Dat)

namespace Cert.ConvStep.Kernel

open Cert.KernelIdeal Cert.KernelIdeal.Gen

variable (m : (ℓ : Loc nD τ sig) → Buf (Elt Ideal) ℓ) (ρ : Dev nD → PrngReg)

/-! ## Indices by their coordinates -/

theorem off2 : (![0, 0] : Fin 2 → Nat) = fun _ => 0 := funext fun a => by fin_cases a <;> rfl
theorem off3 : (![0, 0, 0] : Fin 3 → Nat) = fun _ => 0 := funext fun a => by fin_cases a <;> rfl

/-- A rank-2 index is the one built from its two coordinates. -/
theorem idx2_of_coords {n0 n1 : Nat} (i : (⟨2, ![n0, n1]⟩ : Shape).Idx) (a : Fin n0) (b : Fin n1)
    (h0 : (i 0).val = a.val) (h1 : (i 1).val = b.val) : i = ix2 a b :=
  funext fun d => Fin.ext (by match d with | ⟨0, _⟩ => exact h0 | ⟨1, _⟩ => exact h1)

/-- A rank-3 index is the one built from its three coordinates. -/
theorem idx3_of_coords {n0 n1 n2 : Nat} (i : (⟨3, ![n0, n1, n2]⟩ : Shape).Idx) (a : Fin n0) (b : Fin n1) (c : Fin n2)
    (h0 : (i 0).val = a.val) (h1 : (i 1).val = b.val) (h2 : (i 2).val = c.val) : i = ix3 a b c :=
  funext fun d => Fin.ext (by match d with | ⟨0, _⟩ => exact h0 | ⟨1, _⟩ => exact h1 | ⟨2, _⟩ => exact h2)

/-! ## One lane of one block -/

/-- Lane `y 1` of the block the body stores, from the three blocks it loaded: the gate of the lane's four products
    summed left to right. The state is read at tap positions 1, 2, 3, the weights at columns 0, 1, 2, 3. -/
theorem out_at (xb : Vec Ideal S1x1280 .bf16) (wb : Vec Ideal S1280x4 .bf16) (sb : Vec Ideal S1x1280x4 .bf16) (y : S1x1280.Idx) :
    out0_3 xb wb sb y
      = silu (sb (ix3 (0 : Fin 1) (y 1) (1 : Fin 4)) * wb (ix2 (y 1) (0 : Fin 4))
          + sb (ix3 (0 : Fin 1) (y 1) (2 : Fin 4)) * wb (ix2 (y 1) (1 : Fin 4))
          + sb (ix3 (0 : Fin 1) (y 1) (3 : Fin 4)) * wb (ix2 (y 1) (2 : Fin 4))
          + xb (ix2 (0 : Fin 1) (y 1)) * wb (ix2 (y 1) (3 : Fin 4))) := by
  unfold out0_3
  rw [Value.canon3_eq]
  simp only [View.ld_unit_zero (S := S1x1280) off2, View.ld_unit_zero (S := S1280x4) off2,
    View.ld_unit_zero (S := S1x1280x4) off3]
  have s0 : Value.ix3_0 y = ix3 (0 : Fin 1) (y 1) (1 : Fin 4) := idx3_of_coords _ _ _ _ rfl rfl rfl
  have w0 : Value.ix3_1 y = ix2 (y 1) (0 : Fin 4) := idx2_of_coords _ _ _ rfl rfl
  have s1 : Value.ix3_2 y = ix3 (0 : Fin 1) (y 1) (2 : Fin 4) := idx3_of_coords _ _ _ _ rfl rfl rfl
  have w1 : Value.ix3_3 y = ix2 (y 1) (1 : Fin 4) := idx2_of_coords _ _ _ rfl rfl
  have s2 : Value.ix3_4 y = ix3 (0 : Fin 1) (y 1) (3 : Fin 4) := idx3_of_coords _ _ _ _ rfl rfl rfl
  have w2 : Value.ix3_5 y = ix2 (y 1) (2 : Fin 4) := idx2_of_coords _ _ _ rfl rfl
  have x3 : Value.ix3_6 y = ix2 (0 : Fin 1) (y 1) := idx2_of_coords _ _ _ rfl rfl
  have w3 : Value.ix3_7 y = ix2 (y 1) (3 : Fin 4) := idx2_of_coords _ _ _ rfl rfl
  have s0' : Value.ix3_8 y = ix3 (0 : Fin 1) (y 1) (1 : Fin 4) := idx3_of_coords _ _ _ _ rfl rfl rfl
  have w0' : Value.ix3_9 y = ix2 (y 1) (0 : Fin 4) := idx2_of_coords _ _ _ rfl rfl
  have s1' : Value.ix3_10 y = ix3 (0 : Fin 1) (y 1) (2 : Fin 4) := idx3_of_coords _ _ _ _ rfl rfl rfl
  have w1' : Value.ix3_11 y = ix2 (y 1) (1 : Fin 4) := idx2_of_coords _ _ _ rfl rfl
  have s2' : Value.ix3_12 y = ix3 (0 : Fin 1) (y 1) (3 : Fin 4) := idx3_of_coords _ _ _ _ rfl rfl rfl
  have w2' : Value.ix3_13 y = ix2 (y 1) (2 : Fin 4) := idx2_of_coords _ _ _ rfl rfl
  have x3' : Value.ix3_14 y = ix2 (0 : Fin 1) (y 1) := idx2_of_coords _ _ _ rfl rfl
  have w3' : Value.ix3_15 y = ix2 (y 1) (3 : Fin 4) := idx2_of_coords _ _ _ rfl rfl
  dsimp only [Value.E3]
  rw [s0, w0, s1, w1, s2, w2, x3, w3, s0', w0', s1', w1', s2', w2', x3', w3']
  rfl

/-! ## The blocks of a point -/

/-- The printed index maps over the 8 points: the token, weight and state blocks move with the result block along the
    channel axis and stay at 0 on the others. -/
theorem idx_facts : ∀ t : Fin cfg0.N,
    win0_0.index t (0 : Fin 2) = 0 ∧ win0_0.index t (1 : Fin 2) = win0_3.index t (1 : Fin 2)
    ∧ win0_1.index t (0 : Fin 2) = win0_3.index t (1 : Fin 2) ∧ win0_1.index t (1 : Fin 2) = 0
    ∧ win0_2.index t (0 : Fin 3) = 0 ∧ win0_2.index t (1 : Fin 3) = win0_3.index t (1 : Fin 2)
    ∧ win0_2.index t (2 : Fin 3) = 0 ∧ win0_3.index t (0 : Fin 2) = 0 :=
  (by decide +kernel : ∀ t : Fin grid0.N, _)

/-- Every one of the 8 channel blocks is some point's result block. -/
theorem idx_onto : ∀ q : Fin 8, ∃ t : Fin cfg0.N, win0_3.index t = ![0, q.val] :=
  (by decide +kernel : ∀ q : Fin 8, ∃ t : Fin grid0.N, win0_3.index t = ![0, q.val])

/-- Lane `q` of point `t`'s token block is the token array at the channel `d` under it. -/
theorem token_at (c : Dev nD) (t : Fin cfg0.N) (q : Fin 1280) (b : Fin 1) (d : Fin 10240)
    (hd : d.val = win0_3.index t (1 : Fin 2) * 1280 + q.val) :
    iblk m c 0 t (ix2 (0 : Fin 1) q) = V m c main_arg0 (ix2 b d) := by
  obtain ⟨a0, a1, -⟩ := idx_facts t
  have hb : b.val < 1 := b.isLt
  show V m c main_arg0 (((cfg0.win 0).blk t).view.emb (ix2 (0 : Fin 1) q)) = _
  refine congrArg (V m c main_arg0) (funext fun a => Fin.ext ?_)
  match a with
  | ⟨0, _⟩ => show win0_0.index t (0 : Fin 2) * 1 + 1 * 0 = b.val; omega
  | ⟨1, _⟩ => show win0_0.index t (1 : Fin 2) * 1280 + 1 * q.val = d.val; omega

/-- Row `q`, column `k` of point `t`'s weight block is the weight array at channel `d`, column `k`. -/
theorem weight_at (c : Dev nD) (t : Fin cfg0.N) (q : Fin 1280) (k : Fin 4) (d : Fin 10240)
    (hd : d.val = win0_3.index t (1 : Fin 2) * 1280 + q.val) :
    iblk m c 1 t (ix2 q k) = V m c main_arg1 (ix2 d k) := by
  obtain ⟨-, -, b0, b1, -⟩ := idx_facts t
  show V m c main_arg1 (((cfg0.win 1).blk t).view.emb (ix2 q k)) = _
  refine congrArg (V m c main_arg1) (funext fun a => Fin.ext ?_)
  match a with
  | ⟨0, _⟩ => show win0_1.index t (0 : Fin 2) * 1280 + 1 * q.val = d.val; omega
  | ⟨1, _⟩ => show win0_1.index t (1 : Fin 2) * 4 + 1 * k.val = k.val; omega

/-- Lane `q`, tap position `k` of point `t`'s state block is the state array at channel `d`, position `k`. -/
theorem state_at (c : Dev nD) (t : Fin cfg0.N) (q : Fin 1280) (k : Fin 4) (b : Fin 1) (d : Fin 10240)
    (hd : d.val = win0_3.index t (1 : Fin 2) * 1280 + q.val) :
    iblk m c 2 t (ix3 (0 : Fin 1) q k) = V m c main_arg2 (ix3 b d k) := by
  obtain ⟨-, -, -, -, s0, s1, s2, -⟩ := idx_facts t
  have hb : b.val < 1 := b.isLt
  show V m c main_arg2 (((cfg0.win 2).blk t).view.emb (ix3 (0 : Fin 1) q k)) = _
  refine congrArg (V m c main_arg2) (funext fun a => Fin.ext ?_)
  match a with
  | ⟨0, _⟩ => show win0_2.index t (0 : Fin 3) * 1 + 1 * 0 = b.val; omega
  | ⟨1, _⟩ => show win0_2.index t (1 : Fin 3) * 1280 + 1 * q.val = d.val; omega
  | ⟨2, _⟩ => show win0_2.index t (2 : Fin 3) * 4 + 1 * k.val = k.val; omega

/-- WHAT POINT `t` WRITES BACK is block `t` of `G` of the argument arrays. -/
theorem flushed_eq (c : Dev nD) (t : Fin cfg0.N) :
    (dats m 0 c).flushed 3 t
      = ((cfg0.win 3).blk t).view.read (Elt Ideal) (G (V m c main_arg0) (V m c main_arg1) (V m c main_arg2)) := by
  rw [Value.flushed3]
  funext y
  have hd : ((((cfg0.win 3).blk t).view.emb y) 1).val = win0_3.index t (1 : Fin 2) * 1280 + (y 1).val := by
    show win0_3.index t (1 : Fin 2) * 1280 + 1 * (y 1).val = _; omega
  show out0_3 (iblk m c 0 t) (iblk m c 1 t) (iblk m c 2 t) y
    = silu (taps (V m c main_arg0) (V m c main_arg1) (V m c main_arg2)
        ((((cfg0.win 3).blk t).view.emb y) 0) ((((cfg0.win 3).blk t).view.emb y) 1))
  refine (out_at (iblk m c 0 t) (iblk m c 1 t) (iblk m c 2 t) y).trans ?_
  rw [token_at m c t (y 1) ((((cfg0.win 3).blk t).view.emb y) 0) ((((cfg0.win 3).blk t).view.emb y) 1) hd,
    weight_at m c t (y 1) (0 : Fin 4) ((((cfg0.win 3).blk t).view.emb y) 1) hd,
    weight_at m c t (y 1) (1 : Fin 4) ((((cfg0.win 3).blk t).view.emb y) 1) hd,
    weight_at m c t (y 1) (2 : Fin 4) ((((cfg0.win 3).blk t).view.emb y) 1) hd,
    weight_at m c t (y 1) (3 : Fin 4) ((((cfg0.win 3).blk t).view.emb y) 1) hd,
    state_at m c t (y 1) (1 : Fin 4) ((((cfg0.win 3).blk t).view.emb y) 0) ((((cfg0.win 3).blk t).view.emb y) 1) hd,
    state_at m c t (y 1) (2 : Fin 4) ((((cfg0.win 3).blk t).view.emb y) 0) ((((cfg0.win 3).blk t).view.emb y) 1) hd,
    state_at m c t (y 1) (3 : Fin 4) ((((cfg0.win 3).blk t).view.emb y) 0) ((((cfg0.win 3).blk t).view.emb y) 1) hd]
  rfl

/-! ## The blocks tile the array -/

/-- An index of the result array is in point `t`'s block iff each coordinate is in the block's range on its axis. -/
theorem mem_blk (t : Fin cfg0.N) (i : S1x10240.Idx) :
    i ∈ ((cfg0.win 3).blk t).view.set
      ↔ ∀ a : Fin 2, win0_3.index t a * S1x1280.size a ≤ (i a).val ∧ (i a).val < win0_3.index t a * S1x1280.size a + S1x1280.size a := by
  show i ∈ ((View.whole main_v0).slice (win0_3.rect t)).set ↔ _
  rw [View.set_slice_whole, Rect.mem_set_unit]
  exact Iff.rfl

/-- Channel `d` lies in the block of the point whose block index is `d / 1280`. -/
theorem cover (i : S1x10240.Idx) : ∃ t : Fin cfg0.N, (cfg0.win 3).flush t = true ∧ i ∈ ((cfg0.win 3).blk t).view.set := by
  have hi0 : (i 0).val < 1 := (i 0).isLt
  have hi1 : (i 1).val < 10240 := (i 1).isLt
  obtain ⟨t, ht⟩ := idx_onto ⟨(i 1).val / 1280, by omega⟩
  have q0 : win0_3.index t (0 : Fin 2) = 0 := congrFun ht 0
  have q1 : win0_3.index t (1 : Fin 2) = (i 1).val / 1280 := congrFun ht 1
  refine ⟨t, flush0_3 t, ?_⟩
  rw [mem_blk]
  intro a
  match a with
  | ⟨0, _⟩ => show win0_3.index t (0 : Fin 2) * 1 ≤ (i 0).val ∧ (i 0).val < win0_3.index t (0 : Fin 2) * 1 + 1; omega
  | ⟨1, _⟩ => show win0_3.index t (1 : Fin 2) * 1280 ≤ (i 1).val ∧ (i 1).val < win0_3.index t (1 : Fin 2) * 1280 + 1280; omega

/-- THE RESULT ARRAY after the run is `G` of the argument arrays as launched. -/
theorem final (c : Dev nD) :
    (dats m 0 c).arrAt 3 cfg0.N
      = G (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run, with the result array named: every weakly fair execution ends with the result at `G` of the
    arguments and the arguments as launched. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.ConvStep.Kernel

end
-- ==== Proof.ReferenceTerm.lean ====
/-
  The reference's result, read at an index, is the step's function `G` of the three argument arrays.

  The reference forms the shifted state by joining the state's tap positions 1, 2, 3 with the new token along the tap
  axis, so position `k` of the joined array is the state at position `k + 1` for `k < 3` and the token at `k = 3`.
  It multiplies by the weights spread over the leading unit axis, sums the four products of a channel from `0`, and
  gates the sum `y` with `1 / (1 + e^(-y))`, written out as a negation, an exponential, a sum with the constant one
  and a quotient of the constant one. On the extended reals the sum from `0` is the four products added left to right,
  and the written-out quotient is the logistic function by its definition.
-/
import proofs.«178893_j2078764171677_1_alg».proof.Proof.Gen.ReferenceIdeal.Read
import proofs.«178893_j2078764171677_1_alg».proof.Proof.GatedTaps
import Idealize.ShloMosaic.Lib.IdealHost

noncomputable section

open scoped BigOperators
open Idealize.ShloMosaic Idealize.ShloMosaic.ValueIdx

namespace Cert.ConvStep.Reference

open Cert.ReferenceIdeal Cert.ReferenceIdeal.Gen Cert.ReferenceIdeal.Read

variable (x0 : (⟨S1x10240, .bf16⟩ : BufTy).Contents (Elt Ideal)) (x1 : (⟨S10240x4, .bf16⟩ : BufTy).Contents (Elt Ideal))
  (x2 : (⟨S1x10240x4, .bf16⟩ : BufTy).Contents (Elt Ideal))

/-- Below the joint the joined array reads the state one tap position later. -/
theorem state_kept (b : Fin 1) (d : Fin 10240) (k k' : Fin 4) (hk : k.val < 3) (hk' : k'.val = k.val + 1) :
    val_main_v2 (F := Ideal) x0 x2 (ix3 b d k) = x2 (ix3 b d k') := by
  unfold val_main_v2
  refine (concatenate_pair_apply_left (t := S1x10240x4) (s₁ := S1x10240x3) (s₂ := S1x10240x1) (2 : Fin 3)
    (val_main_v0 (F := Ideal) x2) (val_main_v1 (F := Ideal) x0) concatenates_S1x10240x3_S1x10240x1_S1x10240x4_d2 (ix3 b d k) rfl
    (ix3 b d (⟨k.val, hk⟩ : Fin 3)) (fun a => by match a with | ⟨0, _⟩ => rfl | ⟨1, _⟩ => rfl | ⟨2, _⟩ => rfl)).trans ?_
  rw [val_main_v0_apply]
  exact congrArg x2 (funext fun a => Fin.ext (by
    match a with
    | ⟨0, _⟩ => rfl
    | ⟨1, _⟩ => rfl
    | ⟨2, _⟩ => show 1 + k.val = k'.val; omega))

/-- At the joint, the last tap position, the joined array reads the new token. -/
theorem state_new (b : Fin 1) (d : Fin 10240) :
    val_main_v2 (F := Ideal) x0 x2 (ix3 b d (3 : Fin 4)) = x0 (ix2 b d) := by
  unfold val_main_v2
  refine (concatenate_pair_apply_right (t := S1x10240x4) (s₁ := S1x10240x3) (s₂ := S1x10240x1) (2 : Fin 3)
    (val_main_v0 (F := Ideal) x2) (val_main_v1 (F := Ideal) x0) concatenates_S1x10240x3_S1x10240x1_S1x10240x4_d2 (ix3 b d (3 : Fin 4)) rfl rfl
    (ix3 b d (0 : Fin 1)) (fun a ha => by
      match a with
      | ⟨0, _⟩ => rfl
      | ⟨1, _⟩ => rfl
      | ⟨2, _⟩ => exact absurd rfl ha) rfl).trans ?_
  rw [val_main_v1_apply]
  exact congrArg x0 (funext fun a => Fin.ext (by
    match a with
    | ⟨0, _⟩ => show 0 = b.val; omega
    | ⟨1, _⟩ => rfl))

/-- The product the sum adds at tap position `k` of channel `d` is the step's `k`-th term. -/
theorem product_at (b : Fin 1) (d : Fin 10240) (k : Fin 4) :
    val_main_v6 (F := Ideal) x0 x1 x2 (idx_main_v7 (ix2 b d) k) = term x0 x1 x2 b d k := by
  have hi : idx_main_v7 (ix2 b d) k = ix3 b d k :=
    funext fun a => Fin.ext (by match a with | ⟨0, _⟩ => rfl | ⟨1, _⟩ => rfl | ⟨2, _⟩ => rfl)
  have hw : idx_main_v5 (ix3 b d k) = ix2 d k :=
    funext fun a => Fin.ext (by match a with | ⟨0, _⟩ => rfl | ⟨1, _⟩ => rfl)
  rw [hi, val_main_v6_apply, val_main_v3_apply, val_main_v5_apply, val_main_v4_apply, hw]
  match k with
  | ⟨0, _⟩ => rw [state_kept x0 x2 b d ⟨0, by omega⟩ (1 : Fin 4) (show (0 : ℕ) < 3 by omega) rfl]; rfl
  | ⟨1, _⟩ => rw [state_kept x0 x2 b d ⟨1, by omega⟩ (2 : Fin 4) (show (1 : ℕ) < 3 by omega) rfl]; rfl
  | ⟨2, _⟩ => rw [state_kept x0 x2 b d ⟨2, by omega⟩ (3 : Fin 4) (show (2 : ℕ) < 3 by omega) rfl]; rfl
  | ⟨3, _⟩ => rw [show (⟨3, by omega⟩ : Fin 4) = (3 : Fin 4) from rfl, state_new x0 x2 b d]; rfl

/-- A channel's sum from `0` over the four tap positions is its pre-activation. -/
theorem sum_at (b : Fin 1) (d : Fin 10240) :
    val_main_v7 (F := Ideal) x0 x1 x2 (ix2 b d) = taps x0 x1 x2 b d := by
  rw [val_main_v7_apply, val_main_cst_apply]
  simp only [product_at]
  rw [show (FloatOps.ofBits .f32 0x00000000#32 : Ideal .f32) = 0 from Ideal.ofBits_zero_f32]
  exact zero_add_sum_four _

/-- THE REFERENCE'S RESULT is `G` of the arguments: the gate written as `1 / (1 + e^(-y))` is `y ↦ y · σ(y)`'s factor. -/
theorem result_eq : val_main_v15 (F := Ideal) x0 x1 x2 = G x0 x1 x2 := by
  funext i
  obtain ⟨b, d, rfl⟩ : ∃ (b : Fin 1) (d : Fin 10240), i = ix2 b d := ⟨i 0, i 1, eq_ix2 i⟩
  rw [val_main_v15_apply, val_main_v14_apply, val_main_v13_apply, val_main_v12_apply, val_main_cst_1_apply,
    val_main_v11_apply, val_main_v10_apply, val_main_cst_0_apply, val_main_v9_apply, val_main_v8_apply, sum_at]
  show taps x0 x1 x2 b d * Ideal.div (Ideal.ofBits .f32 0x3F800000#32)
      (Ideal.ofBits .f32 0x3F800000#32 + Ideal.exp (-(taps x0 x1 x2 b d))) = silu (taps x0 x1 x2 b d)
  rw [Ideal.ofBits_one_f32]
  rfl

end Cert.ConvStep.Reference

end
-- ==== Proof.lean ====
/-
  One decode step of a causal depthwise convolution with four taps over 10240 channels, gated by `y ↦ y · σ(y)`, against
  its array-level reference, on the extended reals.

  Both programs compute, for channel `d`,

      y d = cs d 1 · w d 0 + cs d 2 · w d 1 + cs d 3 · w d 2 + x d · w d 3      and return      y d · σ(y d),

  where `cs` is the state (the last four tokens per channel), `w` the four weights per channel and `x` the new token.
  The kernel walks the channels in 8 blocks of 1280, reads the state's tap positions 1, 2, 3 and the weights' four columns
  as rows of lanes, adds the four products left to right and applies the logistic function as one operation. The reference
  joins the state's positions 1, 2, 3 with the token along the tap axis, multiplies by the weights, sums the tap axis from
  `0`, and writes the logistic function out as `1 / (1 + e^(-y))`. On the extended reals a change of float format is the
  identity, the sum from `0` of four terms is the four terms added left to right (addition is associative with unit `0`),
  and the written-out quotient is the logistic function by definition; so the two results are one function `G` of the
  three arrays (Proof/GatedTaps.lean), with no use of the inputs' finiteness.

  Proof/KernelValue.lean shows the kernel's result array ends at `G` (what block `t` writes back is block `t` of `G`, and
  the 8 blocks tile the array); Proof/ReferenceTerm.lean shows the reference's result term is `G`. The three frames are the
  programs' runs with the result dropped, and the kernel's idealization rewrote no operation.
-/
import proofs.«178893_j2078764171677_1_alg».proof.Defs
import proofs.«178893_j2078764171677_1_alg».proof.Proof.Gen.Kernel
import proofs.«178893_j2078764171677_1_alg».proof.Proof.Gen.Kernel.Skeleton
import proofs.«178893_j2078764171677_1_alg».proof.Proof.Gen.Kernel.Launch
import proofs.«178893_j2078764171677_1_alg».proof.Proof.Gen.Kernel.Points
import proofs.«178893_j2078764171677_1_alg».proof.Proof.Gen.Kernel.Frame
import proofs.«178893_j2078764171677_1_alg».proof.Proof.Gen.KernelIdeal
import proofs.«178893_j2078764171677_1_alg».proof.Proof.Gen.KernelIdeal.Skeleton
import proofs.«178893_j2078764171677_1_alg».proof.Proof.Gen.KernelIdeal.Launch
import proofs.«178893_j2078764171677_1_alg».proof.Proof.Gen.KernelIdeal.Points
import proofs.«178893_j2078764171677_1_alg».proof.Proof.Gen.KernelIdeal.Frame
import proofs.«178893_j2078764171677_1_alg».proof.Proof.Gen.ReferenceIdeal
import proofs.«178893_j2078764171677_1_alg».proof.Proof.Gen.Pre_finite_inputs
import proofs.«178893_j2078764171677_1_alg».proof.Proof.Gen.KernelIdeal.Value
import proofs.«178893_j2078764171677_1_alg».proof.Proof.Gen.ReferenceIdeal.Run
import proofs.«178893_j2078764171677_1_alg».proof.Proof.Gen.ReferenceIdeal.Read
import Idealize.ShloMosaic.Adequacy
import Idealize.ShloMosaic.Init

import proofs.«178893_j2078764171677_1_alg».proof.Proof.GatedTaps
import proofs.«178893_j2078764171677_1_alg».proof.Proof.KernelValue
import proofs.«178893_j2078764171677_1_alg».proof.Proof.ReferenceTerm

noncomputable section

namespace Cert.Proof

open Idealize.ShloMosaic Idealize.ShloMosaic.TcCoe Idealize.SL.Sem

/-- The kernel as printed terminates without a fault and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel, so there is nothing to restate. -/
theorem preserves : Cert.preserves_Kernel_KernelIdeal := trivial

/-- From memories that agree on the three arguments both programs end with the result array at `G` of the arguments:
    the kernel by its blocks, the reference by its term read at an index. -/
theorem algebraic : Cert.algebraic_KernelIdeal_ReferenceIdeal := by
  intro m ρ m' ρ' _ hagree
  refine ⟨_, Cert.ConvStep.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ConvStep.Reference.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
